-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S32768x512 : Shape := ⟨2, ![32768, 512]⟩
abbrev S32768 : Shape := ⟨1, ![32768]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S1024x512 .f32) (main_arg1 : FVec F S32768x512 .f32) (main_arg2 : FVec F S32768 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768 .f32 := Host.absf main_arg2
  let main_cst_2 : FVec F S_ .f32 := constant S_ .f32 0x7F800000#32
  let main_v10 : FVec F S32768 .f32 := broadcastInDim S32768 ![] bcast_S_S32768 main_cst_2
  let main_v11 : IVec S32768 1 := cmpf .olt main_v9 main_v10
  let main_c_3 : IVec S_ 1 := constantI S_ 1 1#1
  let main_v12 : IVec S_ 1 := (fun x v => Host.reduce IntOp.andi x v reducesTo_S32768_S_d0 h_S_) main_v11 main_c_3
  let main_v13 : IVec S_ 1 := andi main_v8 main_v12
  main_v13
-- ==== Kernel.lean ====
abbrev S1024x512 : Shape := ⟨2, ![1024, 512]⟩
abbrev S32768x512 : Shape := ⟨2, ![32768, 512]⟩
abbrev S32768 : Shape := ⟨1, ![32768]⟩
abbrev S1x32768 : Shape := ⟨2, ![1, 32768]⟩
abbrev S1024x32768 : Shape := ⟨2, ![1024, 32768]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S32768x512, .f32⟩
  | .hbm, ⟨2, _⟩ => ⟨S32768, .f32⟩
  | .hbm, ⟨3, _⟩ => ⟨S1x32768, .f32⟩
  | .hbm, ⟨4, _⟩ => ⟨S1024x32768, .f32⟩
  | .local _ .vmem, ⟨0, _⟩ => ⟨S1024x512, .f32⟩
  | .local _ .vmem, ⟨1, _⟩ => ⟨S2048x512, .f32⟩
  | .local _ .vmem, ⟨2, _⟩ => ⟨S2048x512, .f32⟩
  | .local _ .vmem, ⟨3, _⟩ => ⟨S1x2048, .f32⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32768_S1x32768 : S32768.ShapeCasts S1x32768
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .f32 = 32 ∨ (Rect.block (s := S1024x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S32768x512.size a
  hwx0_1 : ∀ i : grid0.Coords, EltTy.bits .f32 = 32 ∨ (Rect.block (s := S32768x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x32768.size a
  hwx0_2 : ∀ i : grid0.Coords, EltTy.bits .f32 = 32 ∨ (Rect.block (s := S1x32768) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x32768.size a
  hwx0_3 : ∀ i : grid0.Coords, EltTy.bits .f32 = 32 ∨ (Rect.block (s := S1024x32768) S1024x2048.size (cc0_transform_3 i) (hinb0_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x512 : Shape := ⟨2, ![1024, 512]⟩
abbrev S32768x512 : Shape := ⟨2, ![32768, 512]⟩
abbrev S32768 : Shape := ⟨1, ![32768]⟩
abbrev S512x32768 : Shape := ⟨2, ![512, 32768]⟩
abbrev S1024x32768 : Shape := ⟨2, ![1024, 32768]⟩
abbrev S1x32768 : Shape := ⟨2, ![1, 32768]⟩

abbrev nBuf : Space → Nat
  | .hbm => 8
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S32768x512, .f32⟩
  | .hbm, ⟨2, _⟩ => ⟨S32768, .f32⟩
  | .hbm, ⟨3, _⟩ => ⟨S512x32768, .f32⟩
  | .hbm, ⟨4, _⟩ => ⟨S1024x32768, .f32⟩
  | .hbm, ⟨5, _⟩ => ⟨S1x32768, .f32⟩
  | .hbm, ⟨6, _⟩ => ⟨S1024x32768, .f32⟩
  | .hbm, ⟨7, _⟩ => ⟨S1024x32768, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S32768x512_S512x32768_1_0 : S32768x512.Transposes [1, 0] S512x32768
  bcast_S32768_S1x32768_1 : S32768.BroadcastsInDim S1x32768 (![1] : Fin 1 → Fin S1x32768.rank)
  bcast_S1x32768_S1024x32768_0_1 : S1x32768.BroadcastsInDim S1024x32768 (![0, 1] : Fin 2 → Fin S1024x32768.rank)
  dot_S1024x512_S512x32768_S1024x32768_1_0_0_1_n_n_wf : DotDims.WF S1024x512 S512x32768 S1024x32768 [1] [0] [0] [1] [] []

variable [Facts₀]

def dot_S1024x512_S512x32768_S1024x32768_1_0_0_1_n_n : DotDims S1024x512 S512x32768 S1024x32768 where
  lhsContracting := [1]
  rhsContracting := [0]
  lhsNonContracting := [0]
  rhsNonContracting := [1]
  lhsBatch := []
  rhsBatch := []
  wf := dot_S1024x512_S512x32768_S1024x32768_1_0_0_1_n_n_wf

class Facts : Prop extends Facts₀ where

variable [Facts]
-- ==== Proof.AffineSpec.lean ====
/-
  The function both programs compute, stated once over the argument arrays: the dense affine map
  out[r, n] = ∑ₖ x[r, k] · W[n, k] + b[n]   (r < 1024, n < 32768, k < 512)
  on the extended reals. Row r of x is paired with ROW n of W (the weight is stored output-major, so no
  transpose appears in the formula), and the n-th bias is added once, after the sum. The sum ranges over a
  finite type, so its value does not depend on the order or the grouping of its 512 terms: a tiling of the
  output columns, or a transposed copy of W contracted along its other axis, changes nothing.
-/
import Idealize.ShloMosaic.PureOps.Ideal
import Idealize.ShloMosaic.Lib.ValueIdx

noncomputable section

namespace Cert.Affine

open Idealize.ShloMosaic Idealize.ShloMosaic.ValueIdx

/-- Entry (r, n) of x·Wᵀ + b: row r of x against row n of W, summed over the 512 shared columns, plus bias n. -/
def affineAt (x : (⟨2, ![1024, 512]⟩ : Shape).Idx → EReal) (W : (⟨2, ![32768, 512]⟩ : Shape).Idx → EReal)
    (b : (⟨1, ![32768]⟩ : Shape).Idx → EReal) (r : Fin 1024) (n : Fin 32768) : EReal :=
  (∑ k : Fin 512, x (ix2 r k) * W (ix2 n k)) + b (ix1 n)

/-- The whole [1024, 32768] array x·Wᵀ + b, index by index. -/
def affine (x : (⟨2, ![1024, 512]⟩ : Shape).Idx → EReal) (W : (⟨2, ![32768, 512]⟩ : Shape).Idx → EReal)
    (b : (⟨1, ![32768]⟩ : Shape).Idx → EReal) : (⟨2, ![1024, 32768]⟩ : Shape).Idx → EReal :=
  fun i => affineAt x W b (i 0) (i 1)

theorem affine_apply (x : (⟨2, ![1024, 512]⟩ : Shape).Idx → EReal) (W : (⟨2, ![32768, 512]⟩ : Shape).Idx → EReal)
    (b : (⟨1, ![32768]⟩ : Shape).Idx → EReal) (r : Fin 1024) (n : Fin 32768) :
    affine x W b (ix2 r n) = affineAt x W b r n := rfl

end Cert.Affine

end
-- ==== Proof.RefAffine.lean ====
/-
  The reference computes the affine map. Its program transposes W to [512, 32768], contracts x's columns with the
  transposed array's ROWS, lifts the bias to one row [1, 32768], repeats that row over the 1024 output rows, and adds.
  Read at an output index (r, n): the contraction is ∑ₖ x[r, k] · Wᵀ[k, n], and Wᵀ[k, n] is W[n, k]; the repeated
  bias row at (r, n) is b[n]. So each entry is ∑ₖ x[r, k] · W[n, k] + b[n], the specification's entry, with no
  algebra beyond naming the indices.
-/
import proofs.«422186_j81106162418204_3_alg».proof.Proof.Gen.ReferenceIdeal.Read
import proofs.«422186_j81106162418204_3_alg».proof.Proof.AffineSpec

noncomputable section

namespace Cert.ReferenceIdeal.RefValue

open Cert.ReferenceIdeal Cert.ReferenceIdeal.Read Idealize.ShloMosaic Idealize.ShloMosaic.ValueIdx Cert.Affine

/-- The left factor of term k at output (r, n) is x[r, k]. -/
theorem lhs_index (i : S1024x32768.Idx) (k : Fin 512) : lidx_main_v1 i k = ix2 (i 0 : Fin 1024) k :=
  funext fun a => Fin.ext (by match a with | ⟨0, _⟩ => rfl | ⟨1, _⟩ => rfl)

/-- The right factor of term k at output (r, n) is the transposed array at (k, n), which is W[n, k]. -/
theorem rhs_index (i : S1024x32768.Idx) (k : Fin 512) : idx_main_v0 (ridx_main_v1 i k) = ix2 (i 1 : Fin 32768) k :=
  funext fun a => Fin.ext (by match a with | ⟨0, _⟩ => rfl | ⟨1, _⟩ => rfl)

/-- The repeated bias row at output (r, n) is b[n]. -/
theorem bias_index (i : S1024x32768.Idx) : idx_main_v2 (idx_main_v3 i) = ix1 (i 1 : Fin 32768) :=
  funext fun a => Fin.ext (by match a with | ⟨0, _⟩ => rfl)

/-- The reference's result, as a function of the three argument arrays, is x·Wᵀ + b. -/
theorem ref_eq_affine (x : (⟨S1024x512, .f32⟩ : BufTy).Contents (Elt Ideal)) (W : (⟨S32768x512, .f32⟩ : BufTy).Contents (Elt Ideal))
    (b : (⟨S32768, .f32⟩ : BufTy).Contents (Elt Ideal)) :
    val_main_v4 (F := Ideal) x W b = affine x W b := by
  funext i
  rw [val_main_v4_apply, val_main_v1_apply, val_main_v3_apply, val_main_v2_apply]
  simp only [val_main_v0_apply, lhs_index, rhs_index, bias_index]
  rfl

end Cert.ReferenceIdeal.RefValue

end
-- ==== Proof.BodyAffine.lean ====
/-
  What one grid step of the kernel computes, entry by entry. The step holds all of x ([1024, 512]), one tile of 2048
  rows of W ([2048, 512]) and the matching 2048 biases as one row ([1, 2048]). It multiplies x by the tile with BOTH
  operands contracted along their second axis (the tile is never transposed), starting from a zero accumulator, and
  adds the bias row repeated over the 1024 rows. On the extended reals the narrowing of the operands before the
  product is the identity, and a sum started from zero is the sum. So entry (p, q) of the step's [1024, 2048] result is
  ∑ₖ x[p, k] · tile[q, k] + bias[0, q].
-/
import proofs.«422186_j81106162418204_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The product's operand indices: output (p, q), term k reads x at (p, k) and the tile at (q, k) -/

/-- The left operand's row is the output's row. -/
theorem lhs_row (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
/-- The left operand's column is the summation index. -/
theorem lhs_col (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
/-- The right operand's ROW is the output's column: the tile is used row by row, untransposed. -/
theorem rhs_row (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
/-- The right operand's column is the summation index too. -/
theorem rhs_col (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- The product into a zero accumulator, at (p, q): the sum over the 512 shared columns of row p of the left operand
    against row q of the right one. -/
theorem product_at (a : FVec Ideal S1024x512 .bf16) (w : FVec Ideal S2048x512 .bf16) (p : Fin 1024) (q : Fin 2048) :
    matmul dot_S1024x512_S2048x512_S1024x2048_1_1_0_0_n_n none a w (constant (F := Ideal) S1024x2048 .f32 0x00000000#32) (ix2 p q)
      = ∑ k : Fin 512, a (ix2 p k) * w (ix2 q k) := by
  simp only [matmul]
  rw [Ideal.matmul_constant_zero_apply, ← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx (ix2 p q) ((contrEquiv1 dot_S1024x512_S2048x512_S1024x2048_1_1_0_0_n_n 512 rfl rfl).symm k) = ix2 p k := funext fun ax => Fin.ext (by
    match ax with
    | ⟨0, _⟩ => exact lhs_row _ _
    | ⟨1, _⟩ => exact (lhs_col _ _).trans hk)
  have er : dot_S1024x512_S2048x512_S1024x2048_1_1_0_0_n_n.rhsIdx (ix2 p q) ((contrEquiv1 dot_S1024x512_S2048x512_S1024x2048_1_1_0_0_n_n 512 rfl rfl).symm k) = ix2 q k := funext fun ax => Fin.ext (by
    match ax with
    | ⟨0, _⟩ => exact rhs_row _ _
    | ⟨1, _⟩ => exact (rhs_col _ _).trans hk)
  rw [el, er]

/-- The bias row, kept in its own shape and repeated over the rows, read at (p, q): the row's q-th entry. -/
theorem bias_at (v : Vec Ideal S1x2048 .f32) (p : Fin 1024) (q : Fin 2048) :
    broadcastTo S1024x2048 (shapeCast S1x2048 v shapeCasts_S1x2048_S1x2048) broadcasts_S1x2048_S1024x2048 (ix2 p q)
      = v (ix2 (0 : Fin 1) q) := by
  rw [shapeCast_self]
  exact broadcastTo_1b_ab_apply v _ p q

/-- ONE STEP'S RESULT at (p, q), from the three blocks it loads: ∑ₖ x[p, k] · tile[q, k] + bias[0, q]. -/
theorem step_at (x0 : Vec Ideal S1024x512 .f32) (x1 : Vec Ideal S2048x512 .f32) (x2 : Vec Ideal S1x2048 .f32)
    (p : Fin 1024) (q : Fin 2048) :
    k0_pay1 (F := Ideal) x0 x1 x2 (ix2 p q) = (∑ k : Fin 512, x0 (ix2 p k) * x1 (ix2 q k)) + x2 (ix2 (0 : Fin 1) q) := by
  unfold k0_pay1
  refine (addf_apply _ _ _).trans ?_
  refine congrArg₂ (· + ·) ?_ ?_
  · exact product_at _ _ p q
  · exact bias_at x2 p q

end Cert.KernelIdeal.Body

end
-- ==== Proof.Tiles.lean ====
/-
  From the 16 grid steps to the whole output array. Step t holds all of x, rows 2048·t … 2048·t + 2047 of W, and the
  biases with the same numbers (the bias vector is first laid out as one row [1, 32768], which moves no entry: entry
  (0, n) of the row is b[n]), and writes columns 2048·t … 2048·t + 2047 of the output. Entry (p, q) of what it writes is
  ∑ₖ x[p, k] · W[2048·t + q, k] + b[2048·t + q], which is entry (p, 2048·t + q) of x·Wᵀ + b: each step writes its own
  column tile of ONE whole-array function. Column n lies in the tile of step n / 2048, so the 16 tiles cover the
  array, and the array the run leaves is x·Wᵀ + b.
-/
import proofs.«422186_j81106162418204_3_alg».proof.Proof.Gen.KernelIdeal.Value
import proofs.«422186_j81106162418204_3_alg».proof.Proof.BodyAffine
import proofs.«422186_j81106162418204_3_alg».proof.Proof.AffineSpec
import Idealize.ShloMosaic.Lib.ValueIdx
import Idealize.ShloMosaic.Lib.Pipeline.Value
import Idealize.ShloMosaic.Lib.StableHlo.Run

set_option maxRecDepth 16384

noncomputable section

namespace Cert.KernelIdeal.Tiles

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.Affine
open Idealize.ShloMosaic.Pipeline (Dat)

/-! ## One step's result is a column tile of x·Wᵀ + b, for any blocks that are the right pieces of the arrays -/

/-- If a step's three blocks are: all of x; rows 2048·T … of W; and biases 2048·T … as a row — then entry (p, q) of
    its result is entry (p, 2048·T + q) of x·Wᵀ + b. -/
theorem tile_at (x : S1024x512.Idx → EReal) (W : S32768x512.Idx → EReal) (b : S32768.Idx → EReal)
    (x0 : Vec Ideal S1024x512 .f32) (x1 : Vec Ideal S2048x512 .f32) (x2 : Vec Ideal S1x2048 .f32)
    (T : ℕ) (hT : T < 16)
    (h0 : ∀ (p : Fin 1024) (k : Fin 512), x0 (ix2 p k) = x (ix2 p k))
    (h1 : ∀ (q : Fin 2048) (k : Fin 512), x1 (ix2 q k) = W (ix2 (⟨T * 2048 + q.val, by have := q.isLt; omega⟩ : Fin 32768) k))
    (h2 : ∀ q : Fin 2048, x2 (ix2 (0 : Fin 1) q) = b (ix1 (⟨T * 2048 + q.val, by have := q.isLt; omega⟩ : Fin 32768)))
    (p : Fin 1024) (q : Fin 2048) :
    k0_pay1 (F := Ideal) x0 x1 x2 (ix2 p q) = affineAt x W b p ⟨T * 2048 + q.val, by have := q.isLt; omega⟩ := by
  rw [Body.step_at]
  unfold affineAt
  simp only [h0, h1, h2]

variable (m : (ℓ : Loc nD τ sig) → Buf (Elt Ideal) ℓ) (ρ : Dev nD → PrngReg)

/-! ## The arrays the steps read -/

theorem zero_offsets : (![0, 0] : Fin 2 → Nat) = fun _ => 0 := funext fun a => by fin_cases a <;> rfl

/-- The grid has 16 steps. -/
theorem step_lt (t : Fin cfg0.N) : t.val < 16 := by
  have h := t.isLt
  have e : cfg0.N = 16 := N_0
  omega

/-- Before the steps run, the bias vector is laid out as one row: the same 32768 numbers in the same order. -/
theorem bias_row (c : Dev nD) : (V m c main_v0 : S1x32768.Idx → EReal)
    = shapeCast S1x32768 (m ((c : Thread nD τ).loc main_arg2)) shapeCasts_S32768_S1x32768 := by
  dsimp only [V, hostOps0]
  after_results
  rfl

/-- Entry (0, n) of that row is b[n]. -/
theorem bias_row_at (c : Dev nD) (n : Fin 32768) :
    (V m c main_v0 : S1x32768.Idx → EReal) (ix2 (0 : Fin 1) n) = m ((c : Thread nD τ).loc main_arg2) (ix1 n) := by
  rw [bias_row]
  refine shapeCast_apply _ _ (ix2 (0 : Fin 1) n) (ix1 n) ?_
  rw [Shape.rowMajor_val_one, Shape.rowMajor_val_two]
  show n.val = 0 * 32768 + n.val
  omega

/-- Which block of each array a step uses: x's only block; W's block t of rows; the bias row's block t of columns; and
    the output's block t of columns. -/
theorem block_numbers : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- Step t's block of x is x. -/
theorem x_block (c : Dev nD) (t : Fin cfg0.N) (p : Fin 1024) (k : Fin 512) :
    iblk m c 0 t (ix2 p k) = m ((c : Thread nD τ).loc main_arg0) (ix2 p k) := by
  obtain ⟨e00, e01, -⟩ := block_numbers t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = p.val; omega
  | ⟨1, _⟩ => show win0_0.index t (1 : Fin 2) * 512 + 1 * k.val = k.val; omega

/-- Step t's block of W is its rows 2048·t … 2048·t + 2047. -/
theorem w_block (c : Dev nD) (t : Fin cfg0.N) (q : Fin 2048) (k : Fin 512) :
    iblk m c 1 t (ix2 q k)
      = m ((c : Thread nD τ).loc main_arg1) (ix2 (⟨t.val * 2048 + q.val, by have := q.isLt; have := step_lt t; omega⟩ : Fin 32768) k) := by
  obtain ⟨-, -, e10, e11, -⟩ := block_numbers t
  show V m c main_arg1 (((cfg0.win 1).blk t).view.emb (ix2 q k)) = _
  rw [V_main_arg1]
  refine congrArg _ (funext fun a => Fin.ext ?_)
  match a with
  | ⟨0, _⟩ => show win0_1.index t (0 : Fin 2) * 2048 + 1 * q.val = t.val * 2048 + q.val; omega
  | ⟨1, _⟩ => show win0_1.index t (1 : Fin 2) * 512 + 1 * k.val = k.val; omega

/-- Step t's block of the bias row is its columns 2048·t … 2048·t + 2047, that is, biases with those numbers. -/
theorem b_block (c : Dev nD) (t : Fin cfg0.N) (q : Fin 2048) :
    iblk m c 2 t (ix2 (0 : Fin 1) q)
      = m ((c : Thread nD τ).loc main_arg2) (ix1 (⟨t.val * 2048 + q.val, by have := q.isLt; have := step_lt t; omega⟩ : Fin 32768)) := by
  obtain ⟨-, -, -, -, e20, e21, -⟩ := block_numbers t
  show V m c main_v0 (((cfg0.win 2).blk t).view.emb (ix2 (0 : Fin 1) q)) = _
  rw [← bias_row_at m c]
  refine congrArg _ (funext fun a => Fin.ext ?_)
  match a with
  | ⟨0, _⟩ => show win0_2.index t (0 : Fin 2) * 1 + 1 * (0 : Fin 1).val = (0 : Fin 1).val; simp only [Fin.val_zero]; omega
  | ⟨1, _⟩ => show win0_2.index t (1 : Fin 2) * 2048 + 1 * q.val = t.val * 2048 + q.val; omega

/-! ## What each step writes, and the array the run leaves -/

/-- The whole output as a function of the three argument arrays as launched: x·Wᵀ + b. -/
abbrev result (c : Dev nD) : S1024x32768.Idx → EReal :=
  affine (m ((c : Thread nD τ).loc main_arg0)) (m ((c : Thread nD τ).loc main_arg1)) (m ((c : Thread nD τ).loc main_arg2))

/-- WHAT STEP t WRITES BACK is column tile t of x·Wᵀ + b. -/
theorem flushed_eq (c : Dev nD) (t : Fin cfg0.N) :
    (dats m 0 c).flushed 3 t = ((cfg0.win 3).blk t).view.read (Elt Ideal) (result m c) := by
  rw [flushed3]
  unfold out0_3
  rw [View.canon_unit_zero zero_offsets]
  simp only [View.ld_unit_zero (S := S1024x512) zero_offsets, View.ld_unit_zero (S := S2048x512) zero_offsets,
    View.ld_unit_zero (S := S1x2048) zero_offsets]
  obtain ⟨-, -, -, -, -, -, e30, e31⟩ := block_numbers t
  funext j
  show k0_pay1 (F := Ideal) (iblk m c 0 t) (iblk m c 1 t) (iblk m c 2 t) j = result m c (((cfg0.win 3).blk t).view.emb j)
  obtain ⟨p, q, rfl⟩ : ∃ (p : Fin 1024) (q : Fin 2048), j = ix2 p q := ⟨j 0, j 1, eq_ix2 j⟩
  refine (tile_at (m ((c : Thread nD τ).loc main_arg0)) (m ((c : Thread nD τ).loc main_arg1)) (m ((c : Thread nD τ).loc main_arg2))
    (iblk m c 0 t) (iblk m c 1 t) (iblk m c 2 t) t.val (step_lt t)
    (fun p k => x_block m c t p k) (fun q k => w_block m c t q k) (fun q => b_block m c t q) p q).trans ?_
  show _ = affineAt _ _ _ ((((cfg0.win 3).blk t).view.emb (ix2 p q)) 0) ((((cfg0.win 3).blk t).view.emb (ix2 p q)) 1)
  have r0 : (((cfg0.win 3).blk t).view.emb (ix2 p q)) 0 = p :=
    Fin.ext (by show win0_3.index t (0 : Fin 2) * 1024 + 1 * p.val = p.val; omega)
  have r1 : (((cfg0.win 3).blk t).view.emb (ix2 p q)) 1
      = (⟨t.val * 2048 + q.val, by have := q.isLt; have := step_lt t; omega⟩ : Fin 32768) :=
    Fin.ext (by show win0_3.index t (1 : Fin 2) * 2048 + 1 * q.val = t.val * 2048 + q.val; omega)
  rw [r0, r1]

/-- An index of the output is in step t's tile iff each coordinate is in the tile's range on its axis. -/
theorem mem_tile (t : Fin cfg0.N) (i : S1024x32768.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v1).slice (win0_3.rect t)).set ↔ _
  rw [View.set_slice_whole, Rect.mem_set_unit]
  exact Iff.rfl

/-- The tiles cover the output: column n is in the tile of step n / 2048. -/
theorem tiles_cover (i : S1024x32768.Idx) :
    ∃ t : Fin cfg0.N, (cfg0.win 3).flush t = true ∧ i ∈ ((cfg0.win 3).blk t).view.set := by
  have hi0 : (i 0).val < 1024 := (i 0).isLt
  have hi1 : (i 1).val < 32768 := (i 1).isLt
  have hN : cfg0.N = 16 := N_0
  obtain ⟨t, ht⟩ : ∃ t : Fin cfg0.N, t.val = (i 1).val / 2048 := ⟨⟨(i 1).val / 2048, by omega⟩, rfl⟩
  obtain ⟨-, -, -, -, -, -, e30, e31⟩ := block_numbers t
  refine ⟨t, flush0_3 t, ?_⟩
  rw [mem_tile]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 2048 ≤ (i 1).val ∧ (i 1).val < win0_3.index t (1 : Fin 2) * 2048 + 2048; omega

/-- THE OUTPUT ARRAY after the run is x·Wᵀ + b of the argument arrays. -/
theorem final (c : Dev nD) : (dats m 0 c).arrAt 3 cfg0.N = result m c :=
  (dats m 0 c).arrAt_eq_of_cover 3 (result m c) (fun t _ => flushed_eq m c t) tiles_cover

/-- The kernel's run: it terminates, leaves x·Wᵀ + b in the result array, and leaves the three arguments as they were. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Tiles

end
-- ==== Proof.lean ====
/-
  A dense layer out = x·Wᵀ + b, with x : [1024, 512], W : [32768, 512] (one row per output feature) and b : [32768],
  computed two ways, and the proof that both give out[r, n] = ∑ₖ x[r, k] · W[n, k] + b[n] on the extended reals.

  The kernel walks the 32768 output columns in 16 tiles of 2048. A step keeps all of x, takes the tile's 2048 rows of W
  and its 2048 biases (the bias vector laid out beforehand as one row, which moves no entry), narrows both matrix
  operands (the identity on the extended reals), multiplies x by the tile contracting the second axis of BOTH (so the
  tile is used row by row, never transposed) into a zero accumulator, adds the bias row to every output row, and writes
  its column tile. The reference transposes W, contracts x's columns with the transposed array's rows, and adds the
  bias repeated over the rows.

  Both are the same finite sum of the same 512 products plus the same bias: the kernel's term k at column 2048·t + q of
  step t is x[r, k] · W[2048·t + q, k]; the reference's term k at column n is x[r, k] · Wᵀ[k, n] = x[r, k] · W[n, k]. No
  law of arithmetic is used beyond 0 + s = s for the accumulator, so the two results agree on every extended-real
  input and the finiteness of the inputs is never called on. The tiles are disjoint and cover the columns (column n
  is in tile n / 2048), so the array the kernel leaves is that function whole.

  AffineSpec states the function; RefAffine reads the reference at an index; BodyAffine reads one step's arithmetic at
  an index; Tiles reads each step's blocks off the arrays and assembles the 16 tiles. That each program runs to the
  end without fault and leaves its arguments unchanged is the generated frame of each kernel program and the
  reference's generated run. The idealized kernel is the kernel's own text read over the extended reals: no rewrite
  was applied, so that conjunct asks for nothing.
-/
import proofs.«422186_j81106162418204_3_alg».proof.Defs
import proofs.«422186_j81106162418204_3_alg».proof.Proof.Gen.Kernel
import proofs.«422186_j81106162418204_3_alg».proof.Proof.Gen.Kernel.Skeleton
import proofs.«422186_j81106162418204_3_alg».proof.Proof.Gen.Kernel.Launch
import proofs.«422186_j81106162418204_3_alg».proof.Proof.Gen.Kernel.Points
import proofs.«422186_j81106162418204_3_alg».proof.Proof.Gen.Kernel.Frame
import proofs.«422186_j81106162418204_3_alg».proof.Proof.Gen.KernelIdeal
import proofs.«422186_j81106162418204_3_alg».proof.Proof.Gen.KernelIdeal.Skeleton
import proofs.«422186_j81106162418204_3_alg».proof.Proof.Gen.KernelIdeal.Launch
import proofs.«422186_j81106162418204_3_alg».proof.Proof.Gen.KernelIdeal.Points
import proofs.«422186_j81106162418204_3_alg».proof.Proof.Gen.KernelIdeal.Frame
import proofs.«422186_j81106162418204_3_alg».proof.Proof.Gen.ReferenceIdeal
import proofs.«422186_j81106162418204_3_alg».proof.Proof.Gen.Pre_finite_inputs
import proofs.«422186_j81106162418204_3_alg».proof.Proof.Gen.KernelIdeal.Value
import proofs.«422186_j81106162418204_3_alg».proof.Proof.Gen.ReferenceIdeal.Run
import proofs.«422186_j81106162418204_3_alg».proof.Proof.Gen.ReferenceIdeal.Read
import proofs.«422186_j81106162418204_3_alg».proof.Proof.AffineSpec
import proofs.«422186_j81106162418204_3_alg».proof.Proof.RefAffine
import proofs.«422186_j81106162418204_3_alg».proof.Proof.BodyAffine
import proofs.«422186_j81106162418204_3_alg».proof.Proof.Tiles
import Idealize.ShloMosaic.Adequacy
import Idealize.ShloMosaic.Init

noncomputable section

namespace Cert.Proof

open Idealize.ShloMosaic Idealize.SL.Sem

/-- The kernel as printed runs to the end, faults nowhere, and leaves x, W and b as they were. -/
theorem frame_kernel : Cert.frame_Kernel := fun m ρ _ => Cert.Kernel.Gen.frame m ρ

/-- The same of the kernel read over the extended reals. -/
theorem frame_kernel_ideal : Cert.frame_KernelIdeal := fun m ρ _ => Cert.KernelIdeal.Gen.frame m ρ

/-- The reference is five whole-array operations in a row: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals: nothing to justify. -/
theorem preserves : Cert.preserves_Kernel_KernelIdeal := trivial

/-- From memories that agree on x, W and b, both programs end with x·Wᵀ + b in their result array: the kernel's 16
    column tiles assembled, and the reference's five operations read at an index. -/
theorem algebraic : Cert.algebraic_KernelIdeal_ReferenceIdeal := by
  intro m ρ m' ρ' _ hagree
  refine ⟨fun c => Cert.KernelIdeal.Tiles.result m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq_affine,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
